-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S256x128 : Shape := ⟨2, ![256, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel

variable [Facts]

def fn {F : FTy → Type} [FloatOps F] (main_arg0 : IVec S64x2048 32) (main_arg1 : IVec S64x2048 32) (main_arg2 : IVec S64x2048 32) (main_arg3 : FVec F S256x128 .f32) : IVec S_ 1 :=
  let main_v0 : FVec F S256x128 .f32 := Host.absf main_arg3
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  main_v3
-- ==== Kernel.lean ====
abbrev S64x2048 : Shape := ⟨2, ![64, 2048]⟩
abbrev S256x128 : Shape := ⟨2, ![256, 128]⟩
abbrev S128x256 : Shape := ⟨2, ![128, 256]⟩
abbrev S64x2048x32 : Shape := ⟨3, ![64, 2048, 32]⟩
abbrev S64x2048x64 : Shape := ⟨3, ![64, 2048, 64]⟩
abbrev S64x2048x256 : Shape := ⟨3, ![64, 2048, 256]⟩
abbrev S64x128 : Shape := ⟨2, ![64, 128]⟩
abbrev S64x128x32 : Shape := ⟨3, ![64, 128, 32]⟩
abbrev S64x128x64 : Shape := ⟨3, ![64, 128, 64]⟩
abbrev S64x128x256 : Shape := ⟨3, ![64, 128, 256]⟩
abbrev S64x128x1 : Shape := ⟨3, ![64, 128, 1]⟩
abbrev S64x128x128 : Shape := ⟨3, ![64, 128, 128]⟩
abbrev S8192x128 : Shape := ⟨2, ![8192, 128]⟩
abbrev S8192x256 : Shape := ⟨2, ![8192, 256]⟩

abbrev nBuf : Space → Nat
  | .hbm => 10
  | .vmem => 15
  | .smem => 0
  | _ => 0

abbrev bufTy : (tb : Table) → Fin (tcTables nBuf tb) → BufTy
  | .hbm, ⟨0, _⟩ => ⟨S64x2048, .i32⟩
  | .hbm, ⟨1, _⟩ => ⟨S64x2048, .i32⟩
  | .hbm, ⟨2, _⟩ => ⟨S64x2048, .i32⟩
  | .hbm, ⟨3, _⟩ => ⟨S256x128, .f32⟩
  | .hbm, ⟨4, _⟩ => ⟨S128x256, .f32⟩
  | .hbm, ⟨5, _⟩ => ⟨S128x256, .bf16⟩
  | .hbm, ⟨6, _⟩ => ⟨S64x2048x32, .f32⟩
  | .hbm, ⟨7, _⟩ => ⟨S64x2048x32, .f32⟩
  | .hbm, ⟨8, _⟩ => ⟨S64x2048x64, .f32⟩
  | .hbm, ⟨9, _⟩ => ⟨S64x2048x256, .f32⟩
  | .local _ .vmem, ⟨0, _⟩ => ⟨S64x128, .i32⟩
  | .local _ .vmem, ⟨1, _⟩ => ⟨S64x128, .i32⟩
  | .local _ .vmem, ⟨2, _⟩ => ⟨S64x128, .i32⟩
  | .local _ .vmem, ⟨3, _⟩ => ⟨S64x128, .i32⟩
  | .local _ .vmem, ⟨4, _⟩ => ⟨S64x128, .i32⟩
  | .local _ .vmem, ⟨5, _⟩ => ⟨S64x128, .i32⟩
  | .local _ .vmem, ⟨6, _⟩ => ⟨S128x256, .bf16⟩
  | .local _ .vmem, ⟨7, _⟩ => ⟨S64x128x32, .f32⟩
  | .local _ .vmem, ⟨8, _⟩ => ⟨S64x128x32, .f32⟩
  | .local _ .vmem, ⟨9, _⟩ => ⟨S64x128x32, .f32⟩
  | .local _ .vmem, ⟨10, _⟩ => ⟨S64x128x32, .f32⟩
  | .local _ .vmem, ⟨11, _⟩ => ⟨S64x128x64, .f32⟩
  | .local _ .vmem, ⟨12, _⟩ => ⟨S64x128x64, .f32⟩
  | .local _ .vmem, ⟨13, _⟩ => ⟨S64x128x256, .f32⟩
  | .local _ .vmem, ⟨14, _⟩ => ⟨S64x128x256, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x128_S128x256_1_0 : S256x128.Transposes [1, 0] S128x256
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128x1 : S64x128.ShapeCasts S64x128x1
  iota_S64x128x32_d2_w32 : S64x128x32.Iotas .tc 32 [2]
  broadcasts_S64x128x1_S64x128x32 : S64x128x1.Broadcasts S64x128x32
  natLt_1_32 : 1 < 32
  inb_S64x128x32_S64x128x32_0_0_0 : ∀ a, (![0, 0, 0] : Fin 3 → Nat) a + S64x128x32.size a ≤ S64x128x32.size a
  h_S64x128x32 : 0 < S64x128x32.numel
  iota_S64x128x64_d2_w32 : S64x128x64.Iotas .tc 32 [2]
  broadcasts_S64x128x1_S64x128x64 : S64x128x1.Broadcasts S64x128x64
  inb_S64x128x64_S64x128x64_0_0_0 : ∀ a, (![0, 0, 0] : Fin 3 → Nat) a + S64x128x64.size a ≤ S64x128x64.size a
  h_S64x128x64 : 0 < S64x128x64.numel
  concatenates_S64x128x32_S64x128x32_S64x128x64_S64x128x128_d2 : Shape.Concatenates [S64x128x32, S64x128x32, S64x128x64] S64x128x128 2
  shapeCasts_S64x128x128_S8192x128 : S64x128x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S8192x256_S64x128x256 : S8192x256.ShapeCasts S64x128x256
  inb_S64x128x256_S64x128x256_0_0_0 : ∀ a, (![0, 0, 0] : Fin 3 → Nat) a + S64x128x256.size a ≤ S64x128x256.size a
  h_S64x128x256 : 0 < S64x128x256.numel
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x2048.size a
  hwx0_0 : ∀ i : grid0.Coords, EltTy.bits .i32 = 32 ∨ (Rect.block (s := S64x2048) S64x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x2048.size a
  hwx0_1 : ∀ i : grid0.Coords, EltTy.bits .i32 = 32 ∨ (Rect.block (s := S64x2048) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x2048.size a
  hwx0_2 : ∀ i : grid0.Coords, EltTy.bits .i32 = 32 ∨ (Rect.block (s := S64x2048) S64x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x32.size a ≤ S64x2048x32.size a
  hwx0_4 : ∀ i : grid0.Coords, EltTy.bits .f32 = 32 ∨ (Rect.block (s := S64x2048x32) S64x128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128x32.size a ≤ S64x2048x32.size a
  hwx0_5 : ∀ i : grid0.Coords, EltTy.bits .f32 = 32 ∨ (Rect.block (s := S64x2048x32) S64x128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128x64.size a ≤ S64x2048x64.size a
  hwx0_6 : ∀ i : grid0.Coords, EltTy.bits .f32 = 32 ∨ (Rect.block (s := S64x2048x64) S64x128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128x256.size a ≤ S64x2048x256.size a
  hwx0_7 : ∀ i : grid0.Coords, EltTy.bits .f32 = 32 ∨ (Rect.block (s := S64x2048x256) S64x128x256.size (cc0_transform_7 i) (hinb0_7 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S64x128x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S64x128x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S64x128x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S64x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x2048 : Shape := ⟨2, ![64, 2048]⟩
abbrev S256x128 : Shape := ⟨2, ![256, 128]⟩
abbrev S64x2048x1 : Shape := ⟨3, ![64, 2048, 1]⟩
abbrev S1x1x32 : Shape := ⟨3, ![1, 1, 32]⟩
abbrev S64x2048x32 : Shape := ⟨3, ![64, 2048, 32]⟩
abbrev S1x1x64 : Shape := ⟨3, ![1, 1, 64]⟩
abbrev S64x2048x64 : Shape := ⟨3, ![64, 2048, 64]⟩
abbrev S64x2048x128 : Shape := ⟨3, ![64, 2048, 128]⟩
abbrev S64x2048x256 : Shape := ⟨3, ![64, 2048, 256]⟩

abbrev nBuf : Space → Nat
  | .hbm => 24
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64x2048, .i32⟩
  | .hbm, ⟨2, _⟩ => ⟨S64x2048, .i32⟩
  | .hbm, ⟨3, _⟩ => ⟨S256x128, .f32⟩
  | .hbm, ⟨4, _⟩ => ⟨S64x2048x1, .i32⟩
  | .hbm, ⟨5, _⟩ => ⟨S1x1x32, .i32⟩
  | .hbm, ⟨6, _⟩ => ⟨S64x2048x32, .i32⟩
  | .hbm, ⟨7, _⟩ => ⟨S64x2048x32, .i32⟩
  | .hbm, ⟨8, _⟩ => ⟨S64x2048x32, .i1⟩
  | .hbm, ⟨9, _⟩ => ⟨S64x2048x32, .f32⟩
  | .hbm, ⟨10, _⟩ => ⟨S64x2048x1, .i32⟩
  | .hbm, ⟨11, _⟩ => ⟨S1x1x32, .i32⟩
  | .hbm, ⟨12, _⟩ => ⟨S64x2048x32, .i32⟩
  | .hbm, ⟨13, _⟩ => ⟨S64x2048x32, .i32⟩
  | .hbm, ⟨14, _⟩ => ⟨S64x2048x32, .i1⟩
  | .hbm, ⟨15, _⟩ => ⟨S64x2048x32, .f32⟩
  | .hbm, ⟨16, _⟩ => ⟨S64x2048x1, .i32⟩
  | .hbm, ⟨17, _⟩ => ⟨S1x1x64, .i32⟩
  | .hbm, ⟨18, _⟩ => ⟨S64x2048x64, .i32⟩
  | .hbm, ⟨19, _⟩ => ⟨S64x2048x64, .i32⟩
  | .hbm, ⟨20, _⟩ => ⟨S64x2048x64, .i1⟩
  | .hbm, ⟨21, _⟩ => ⟨S64x2048x64, .f32⟩
  | .hbm, ⟨22, _⟩ => ⟨S64x2048x128, .f32⟩
  | .hbm, ⟨23, _⟩ => ⟨S64x2048x256, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v1 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  bcast_S64x2048_S64x2048x1_0_1 : S64x2048.BroadcastsInDim S64x2048x1 (![0, 1] : Fin 2 → Fin S64x2048x1.rank)
  bcast_S64x2048x1_S64x2048x32_0_1_2 : S64x2048x1.BroadcastsInDim S64x2048x32 (![0, 1, 2] : Fin 3 → Fin S64x2048x32.rank)
  bcast_S1x1x32_S64x2048x32_0_1_2 : S1x1x32.BroadcastsInDim S64x2048x32 (![0, 1, 2] : Fin 3 → Fin S64x2048x32.rank)
  bcast_S64x2048x1_S64x2048x64_0_1_2 : S64x2048x1.BroadcastsInDim S64x2048x64 (![0, 1, 2] : Fin 3 → Fin S64x2048x64.rank)
  bcast_S1x1x64_S64x2048x64_0_1_2 : S1x1x64.BroadcastsInDim S64x2048x64 (![0, 1, 2] : Fin 3 → Fin S64x2048x64.rank)
  concatenates_S64x2048x32_S64x2048x32_S64x2048x64_S64x2048x128_d2 : Shape.Concatenates [S64x2048x32, S64x2048x32, S64x2048x64] S64x2048x128 2
  dot_S64x2048x128_S256x128_S64x2048x256_2_1_01_0_n_n_wf : DotDims.WF S64x2048x128 S256x128 S64x2048x256 [2] [1] [0, 1] [0] [] []

variable [Facts₀]

def dot_S64x2048x128_S256x128_S64x2048x256_2_1_01_0_n_n : DotDims S64x2048x128 S256x128 S64x2048x256 where
  lhsContracting := [2]
  rhsContracting := [1]
  lhsNonContracting := [0, 1]
  rhsNonContracting := [0]
  lhsBatch := []
  rhsBatch := []
  wf := dot_S64x2048x128_S256x128_S64x2048x256_2_1_01_0_n_n_wf

class Facts : Prop extends Facts₀ where

variable [Facts]
-- ==== Proof.OneHotSpec.lean ====
/-
  The mathematics both programs compute, stated once over the argument arrays.

  Three arrays of index words over the positions (b, l), b < 64, l < 2048, are one-hot encoded with 32, 32 and 64 classes:
  entry (b, l, j) of an encoding is one when the position's word IS the word of class j and zero otherwise (an
  out-of-range word matches no class, so its row is all zeros). The three encodings joined along the class axis give a
  feature row of 128 entries per position, and the embedding is that row times the transposed weight matrix:
  entry (b, l, e) is the sum over k < 128 of feature (b, l, k) times W (e, k).

  Also here: the two facts about joined rows and converted conditions that both programs' readings use — a
  three-piece join of extents 32, 32, 64 along the last axis read at an index, and a condition bit converted through a
  32-bit word (signed) being the bit converted directly (unsigned).
-/
import Idealize.ShloMosaic.PureOps.Ideal
import Idealize.ShloMosaic.Lib.ValueIdx
import Idealize.ShloMosaic.Lib.Pipeline.Value
import Idealize.ShloMosaic.Lib.KernelVsHost

noncomputable section

namespace Cert.OneHot

open Idealize.ShloMosaic Idealize.ShloMosaic.ValueIdx
open scoped BigOperators

/-- The class test as a number: one where the index word `w` is the word of class `j`, zero elsewhere. -/
def hot (w : BitVec 32) (j : Nat) : EReal :=
  FloatOps.uitofp (F := Ideal) .f32 (IntOp.cmpi .eq w (BitVec.ofNat 32 j))

/-- Entry `k` of one position's joined feature row: the 32 classes of the first word, then the 32 of the second,
    then the 64 of the third. -/
def featRow (w0 w1 w2 : BitVec 32) (k : Fin 128) : EReal :=
  if k.val < 32 then hot w0 k.val else if k.val < 64 then hot w1 (k.val - 32) else hot w2 (k.val - 64)

abbrev SPos : Shape := ⟨2, ![64, 2048]⟩
abbrev SWgt : Shape := ⟨2, ![256, 128]⟩
abbrev SHot32 : Shape := ⟨3, ![64, 2048, 32]⟩
abbrev SHot64 : Shape := ⟨3, ![64, 2048, 64]⟩
abbrev SEmb : Shape := ⟨3, ![64, 2048, 256]⟩

/-- The one-hot encoding with 32 classes of an array of index words. -/
def oneHot32 (x : IVec SPos 32) : FVec Ideal SHot32 .f32 :=
  fun i => hot (x (ix2 (n0 := 64) (n1 := 2048) (i 0) (i 1))) (i 2).val

/-- The one-hot encoding with 64 classes. -/
def oneHot64 (x : IVec SPos 32) : FVec Ideal SHot64 .f32 :=
  fun i => hot (x (ix2 (n0 := 64) (n1 := 2048) (i 0) (i 1))) (i 2).val

/-- The embedding: each position's joined feature row times the transposed weights. -/
def embed (x0 x1 x2 : IVec SPos 32) (W : FVec Ideal SWgt .f32) : FVec Ideal SEmb .f32 :=
  fun i => ∑ k : Fin 128,
    featRow (x0 (ix2 (n0 := 64) (n1 := 2048) (i 0) (i 1))) (x1 (ix2 (n0 := 64) (n1 := 2048) (i 0) (i 1))) (x2 (ix2 (n0 := 64) (n1 := 2048) (i 0) (i 1))) k * W (ix2 (n0 := 256) (n1 := 128) (i 2) k)

/-- A condition bit widened to a 32-bit word and converted as a signed integer is the bit converted as an unsigned
    one: the widened word is 0 or 1. -/
theorem sitofp_widen_eq_uitofp (c : BitVec 1) :
    FloatOps.sitofp (F := Ideal) .f32 (c.setWidth 32) = FloatOps.uitofp (F := Ideal) .f32 c := by
  show ((((c.setWidth 32).toInt : ℤ) : ℝ) : EReal) = (((c.toNat : ℕ) : ℝ) : EReal)
  rw [toInt_setWidth_bit]
  norm_cast

section Join
variable {α : Type} {A B : Nat}

/-- Three arrays of extents 32, 32 and 64 on the last of three axes, joined along it, read at (b, l, k): the piece
    whose span holds `k`, at `k` less the extents before it. -/
theorem join3_apply (y0 : (⟨3, ![A, B, 32]⟩ : Shape).Idx → α) (y1 : (⟨3, ![A, B, 32]⟩ : Shape).Idx → α)
    (y2 : (⟨3, ![A, B, 64]⟩ : Shape).Idx → α)
    (h : Shape.Concatenates [(⟨3, ![A, B, 32]⟩ : Shape), ⟨3, ![A, B, 32]⟩, ⟨3, ![A, B, 64]⟩] ⟨3, ![A, B, 128]⟩ 2)
    (b : Fin A) (l : Fin B) (k : Fin 128) :
    concatenate (⟨3, ![A, B, 128]⟩ : Shape) 2 [⟨⟨3, ![A, B, 32]⟩, y0⟩, ⟨⟨3, ![A, B, 32]⟩, y1⟩, ⟨⟨3, ![A, B, 64]⟩, y2⟩] h (ix3 b l k)
      = if h0 : k.val < 32 then y0 (ix3 b l ⟨k.val, h0⟩)
        else if h1 : k.val < 64 then y1 (ix3 b l ⟨k.val - 32, by omega⟩)
        else y2 (ix3 b l ⟨k.val - 64, by omega⟩) := by
  have hk := k.isLt
  by_cases h0 : k.val < 32
  · rw [dif_pos h0]
    refine concatenate_apply_piece 2 [⟨⟨3, ![A, B, 32]⟩, y0⟩, ⟨⟨3, ![A, B, 32]⟩, y1⟩, ⟨⟨3, ![A, B, 64]⟩, y2⟩] h (ix3 b l k) 0 (by show 0 < 3; omega) _ y0 rfl rfl 0 rfl (ix3 b l ⟨k.val, h0⟩) ?_ ?_
    · intro a ha
      match a with
      | ⟨0, _⟩ => rfl
      | ⟨1, _⟩ => rfl
      | ⟨2, _⟩ => exact absurd rfl ha
    · show 0 + k.val = k.val; omega
  · rw [dif_neg h0]
    by_cases h1 : k.val < 64
    · rw [dif_pos h1]
      refine concatenate_apply_piece 2 [⟨⟨3, ![A, B, 32]⟩, y0⟩, ⟨⟨3, ![A, B, 32]⟩, y1⟩, ⟨⟨3, ![A, B, 64]⟩, y2⟩] h (ix3 b l k) 1 (by show 1 < 3; omega) _ y1 rfl rfl 32 rfl (ix3 b l ⟨k.val - 32, by omega⟩) ?_ ?_
      · intro a ha
        match a with
        | ⟨0, _⟩ => rfl
        | ⟨1, _⟩ => rfl
        | ⟨2, _⟩ => exact absurd rfl ha
      · show 32 + (k.val - 32) = k.val; omega
    · rw [dif_neg h1]
      refine concatenate_apply_piece 2 [⟨⟨3, ![A, B, 32]⟩, y0⟩, ⟨⟨3, ![A, B, 32]⟩, y1⟩, ⟨⟨3, ![A, B, 64]⟩, y2⟩] h (ix3 b l k) 2 (by show 2 < 3; omega) _ y2 rfl rfl 64 rfl (ix3 b l ⟨k.val - 64, by omega⟩) ?_ ?_
      · intro a ha
        match a with
        | ⟨0, _⟩ => rfl
        | ⟨1, _⟩ => rfl
        | ⟨2, _⟩ => exact absurd rfl ha
      · show 64 + (k.val - 64) = k.val; omega

end Join

end Cert.OneHot

end
-- ==== Proof.RefValue.lean ====
/-
  The reference computes the specification. Its three `one_hot` calls compare each position's word, broadcast along a
  new class axis, with the class numbers 0 … n−1 laid along that axis, and convert the condition bit: entry (b, l, j) is
  the class test of word (b, l) against class j. Its `einsum` contracts the joined feature rows with the weights'
  second axis: entry (b, l, e) is the sum over k of feature (b, l, k) times W (e, k). Read stage by stage through the
  generated index lemmas, each result IS the specification's function of the arguments.
-/
import proofs.«112947_j1365799600731_1_alg».proof.Proof.Gen.ReferenceIdeal.Read
import proofs.«112947_j1365799600731_1_alg».proof.Proof.OneHotSpec

noncomputable section

namespace Cert.ReferenceIdeal.RefValue

open Cert.ReferenceIdeal Cert.ReferenceIdeal.Gen Cert.ReferenceIdeal.Read
open Idealize.ShloMosaic Idealize.ShloMosaic.ValueIdx Cert.OneHot
open scoped BigOperators

/-- The position a 32-class entry reads its word at: the two broadcasts keep the first two coordinates. -/
theorem pos0 (i : S64x2048x32.Idx) : idx_main_call0_v0 (idx_main_call0_v2 i) = ix2 (n0 := 64) (n1 := 2048) (i 0) (i 1) :=
  funext fun a => Fin.ext (by match a with | ⟨0, _⟩ => rfl | ⟨1, _⟩ => rfl)

theorem pos1 (i : S64x2048x32.Idx) : idx_main_call1_v0 (idx_main_call1_v2 i) = ix2 (n0 := 64) (n1 := 2048) (i 0) (i 1) :=
  funext fun a => Fin.ext (by match a with | ⟨0, _⟩ => rfl | ⟨1, _⟩ => rfl)

theorem pos2 (i : S64x2048x64.Idx) : idx_main_call2_v0 (idx_main_call2_v2 i) = ix2 (n0 := 64) (n1 := 2048) (i 0) (i 1) :=
  funext fun a => Fin.ext (by match a with | ⟨0, _⟩ => rfl | ⟨1, _⟩ => rfl)

/-- The first result is the 32-class encoding of the first argument. -/
theorem v0_eq (x0 : IVec SPos 32) : val_main_v0 (F := Ideal) x0 = oneHot32 x0 := by
  funext i
  rw [val_main_v0_apply, val_main_call0_v4_apply, val_main_call0_v2_apply, val_main_call0_v0_apply,
    val_main_call0_v3_apply, val_main_call0_v1_apply, pos0]
  rfl

/-- The second result is the 32-class encoding of the second argument. -/
theorem v1_eq (x1 : IVec SPos 32) : val_main_v1 (F := Ideal) x1 = oneHot32 x1 := by
  funext i
  rw [val_main_v1_apply, val_main_call1_v4_apply, val_main_call1_v2_apply, val_main_call1_v0_apply,
    val_main_call1_v3_apply, val_main_call1_v1_apply, pos1]
  rfl

/-- The third result is the 64-class encoding of the third argument. -/
theorem v2_eq (x2 : IVec SPos 32) : val_main_v2 (F := Ideal) x2 = oneHot64 x2 := by
  funext i
  rw [val_main_v2_apply, val_main_call2_v4_apply, val_main_call2_v2_apply, val_main_call2_v0_apply,
    val_main_call2_v3_apply, val_main_call2_v1_apply, pos2]
  rfl

/-- The joined encodings at (b, l, k) are the feature row of position (b, l) at k. -/
theorem v3_apply (x0 x1 x2 : IVec SPos 32) (b : Fin 64) (l : Fin 2048) (k : Fin 128) :
    val_main_v3 (F := Ideal) x0 x1 x2 (ix3 b l k) = featRow (x0 (ix2 b l)) (x1 (ix2 b l)) (x2 (ix2 b l)) k := by
  unfold val_main_v3
  refine (join3_apply (A := 64) (B := 2048) (val_main_v0 (F := Ideal) x0) (val_main_v1 (F := Ideal) x1)
    (val_main_v2 (F := Ideal) x2) concatenates_S64x2048x32_S64x2048x32_S64x2048x64_S64x2048x128_d2 b l k).trans ?_
  rw [v0_eq, v1_eq, v2_eq]
  unfold featRow
  by_cases h0 : k.val < 32
  · rw [dif_pos h0, if_pos h0]; rfl
  · rw [dif_neg h0, if_neg h0]
    by_cases h1 : k.val < 64
    · rw [dif_pos h1, if_pos h1]; rfl
    · rw [dif_neg h1, if_neg h1]; rfl

/-- The fourth result is the embedding of the three index arrays by the weights. -/
theorem v4_eq (x0 x1 x2 : IVec SPos 32) (W : FVec Ideal SWgt .f32) :
    val_main_v4 (F := Ideal) x0 x1 x2 W = embed x0 x1 x2 W := by
  funext i
  rw [val_main_v4_apply]
  unfold embed
  refine Finset.sum_congr rfl fun k _ => ?_
  have el : lidx_main_v4 i k = ix3 (n0 := 64) (n1 := 2048) (n2 := 128) (i 0) (i 1) k :=
    funext fun a => Fin.ext (by match a with | ⟨0, _⟩ => rfl | ⟨1, _⟩ => rfl | ⟨2, _⟩ => rfl)
  have er : ridx_main_v4 i k = ix2 (n0 := 256) (n1 := 128) (i 2) k :=
    funext fun a => Fin.ext (by match a with | ⟨0, _⟩ => rfl | ⟨1, _⟩ => rfl)
  rw [el, er]
  exact congrArg (fun z => z * W (ix2 (n0 := 256) (n1 := 128) (i 2) k)) (v3_apply x0 x1 x2 (i 0) (i 1) k)

end Cert.ReferenceIdeal.RefValue

end
-- ==== Proof.KernelPayload.lean ====
/-
  What the kernel body stores, read at an index.

  At a grid point the body holds a [64, 128] block of each index array and the whole [128, 256] transposed weight
  matrix. For each index block it lays the words along a new class axis, compares them with the class numbers along that
  axis, widens the condition bit to a 32-bit word and converts it as a signed integer: entry (b, l, j) of the stored
  block is the class test of word (b, l) against class j (the widened bit is 0 or 1, so the signed conversion is the
  unsigned one). It then joins the three encodings along the class axis, flattens the positions (b, l) to rows
  b·128 + l, multiplies the [8192, 128] rows by the [128, 256] weights into a zero accumulator, and unflattens: entry
  (b, l, e) is the sum over k < 128 of position (b, l)'s feature k times weight (k, e).
-/
import proofs.«112947_j1365799600731_1_alg».proof.Proof.Gen.KernelIdeal.Skeleton
import proofs.«112947_j1365799600731_1_alg».proof.Proof.OneHotSpec
import Idealize.ShloMosaic.PureOps.Ideal.Laws

noncomputable section

namespace Cert.KernelIdeal.Body

open Cert.KernelIdeal Cert.KernelIdeal.Gen
open Idealize.ShloMosaic Idealize.ShloMosaic.ValueIdx Cert.OneHot
open scoped BigOperators

/-! ## The words laid along the class axis -/

/-- A block of words given a trailing unit axis and broadcast along 32 classes reads word (b, l) at (b, l, j). -/
theorem spread32 (v : Vec Ideal S64x128 .i32) (b : Fin 64) (l : Fin 128) (j : Fin 32) :
    broadcastTo S64x128x32 (shapeCast S64x128x1 v shapeCasts_S64x128_S64x128x1) broadcasts_S64x128x1_S64x128x32 (ix3 b l j)
      = v (ix2 b l) := by
  refine (broadcastTo_apply _ broadcasts_S64x128x1_S64x128x32 (ix3 b l j) (ix3 b l (⟨0, Nat.one_pos⟩ : Fin 1)) (fun a => ?_)).trans ?_
  · match a with
    | ⟨0, _⟩ => show b.val = if (64 : Nat) = 1 then 0 else b.val; rw [if_neg (by decide)]
    | ⟨1, _⟩ => show l.val = if (128 : Nat) = 1 then 0 else l.val; rw [if_neg (by decide)]
    | ⟨2, _⟩ => show 0 = if (1 : Nat) = 1 then 0 else j.val; rw [if_pos rfl]
  · refine shapeCast_apply v shapeCasts_S64x128_S64x128x1 (ix3 b l (⟨0, Nat.one_pos⟩ : Fin 1)) (ix2 b l) ?_
    rw [Shape.rowMajor_val_two, Shape.rowMajor_val_three]
    show b.val * 128 + l.val = (b.val * 128 + l.val) * 1 + 0
    omega

/-- The same along 64 classes. -/
theorem spread64 (v : Vec Ideal S64x128 .i32) (b : Fin 64) (l : Fin 128) (j : Fin 64) :
    broadcastTo S64x128x64 (shapeCast S64x128x1 v shapeCasts_S64x128_S64x128x1) broadcasts_S64x128x1_S64x128x64 (ix3 b l j)
      = v (ix2 b l) := by
  refine (broadcastTo_apply _ broadcasts_S64x128x1_S64x128x64 (ix3 b l j) (ix3 b l (⟨0, Nat.one_pos⟩ : Fin 1)) (fun a => ?_)).trans ?_
  · match a with
    | ⟨0, _⟩ => show b.val = if (64 : Nat) = 1 then 0 else b.val; rw [if_neg (by decide)]
    | ⟨1, _⟩ => show l.val = if (128 : Nat) = 1 then 0 else l.val; rw [if_neg (by decide)]
    | ⟨2, _⟩ => show 0 = if (1 : Nat) = 1 then 0 else j.val; rw [if_pos rfl]
  · refine shapeCast_apply v shapeCasts_S64x128_S64x128x1 (ix3 b l (⟨0, Nat.one_pos⟩ : Fin 1)) (ix2 b l) ?_
    rw [Shape.rowMajor_val_two, Shape.rowMajor_val_three]
    show b.val * 128 + l.val = (b.val * 128 + l.val) * 1 + 0
    omega

/-! ## The three encodings stored -/

/-- The first stored block at (b, l, j): the class test of the first index block's word (b, l) against class j. -/
theorem pay1_apply (v : Vec Ideal S64x128 .i32) (b : Fin 64) (l : Fin 128) (j : Fin 32) :
    k0_pay1 (F := Ideal) v (ix3 b l j) = hot (v (ix2 b l)) j.val := by
  show FloatOps.sitofp (F := Ideal) .f32 ((IntOp.cmpi .eq
      (broadcastTo S64x128x32 (shapeCast S64x128x1 v shapeCasts_S64x128_S64x128x1) broadcasts_S64x128x1_S64x128x32 (ix3 b l j))
      (iota .tc S64x128x32 32 [2] iota_S64x128x32_d2_w32 (ix3 b l j))).setWidth 32) = _
  rw [sitofp_widen_eq_uitofp, spread32, iota_single_apply]
  rfl

/-- The second stored block, of the second index block. -/
theorem pay2_apply (v : Vec Ideal S64x128 .i32) (b : Fin 64) (l : Fin 128) (j : Fin 32) :
    k0_pay2 (F := Ideal) v (ix3 b l j) = hot (v (ix2 b l)) j.val := by
  show FloatOps.sitofp (F := Ideal) .f32 ((IntOp.cmpi .eq
      (broadcastTo S64x128x32 (shapeCast S64x128x1 v shapeCasts_S64x128_S64x128x1) broadcasts_S64x128x1_S64x128x32 (ix3 b l j))
      (iota .tc S64x128x32 32 [2] iota_S64x128x32_d2_w32 (ix3 b l j))).setWidth 32) = _
  rw [sitofp_widen_eq_uitofp, spread32, iota_single_apply]
  rfl

/-- The third stored block, of the third index block, with 64 classes. -/
theorem pay3_apply (v : Vec Ideal S64x128 .i32) (b : Fin 64) (l : Fin 128) (j : Fin 64) :
    k0_pay3 (F := Ideal) v (ix3 b l j) = hot (v (ix2 b l)) j.val := by
  show FloatOps.sitofp (F := Ideal) .f32 ((IntOp.cmpi .eq
      (broadcastTo S64x128x64 (shapeCast S64x128x1 v shapeCasts_S64x128_S64x128x1) broadcasts_S64x128x1_S64x128x64 (ix3 b l j))
      (iota .tc S64x128x64 32 [2] iota_S64x128x64_d2_w32 (ix3 b l j))).setWidth 32) = _
  rw [sitofp_widen_eq_uitofp, spread64, iota_single_apply]
  rfl

/-! ## The joined feature block -/

/-- The three encodings of a point's index blocks, narrowed (no change of value) and joined along the class axis. -/
def featBlk (v0 v1 v2 : Vec Ideal S64x128 .i32) : FVec Ideal S64x128x128 .bf16 :=
  concatenate S64x128x128 2 [⟨S64x128x32, truncf .bf16 (k0_pay1 (F := Ideal) v0) bitsLt_bf16_f32⟩,
    ⟨S64x128x32, truncf .bf16 (k0_pay2 (F := Ideal) v1) bitsLt_bf16_f32⟩,
    ⟨S64x128x64, truncf .bf16 (k0_pay3 (F := Ideal) v2) bitsLt_bf16_f32⟩]
    concatenates_S64x128x32_S64x128x32_S64x128x64_S64x128x128_d2

/-- At (b, l, k) it is the feature row of position (b, l) at k. -/
theorem featBlk_apply (v0 v1 v2 : Vec Ideal S64x128 .i32) (b : Fin 64) (l : Fin 128) (k : Fin 128) :
    featBlk v0 v1 v2 (ix3 b l k) = featRow (v0 (ix2 b l)) (v1 (ix2 b l)) (v2 (ix2 b l)) k := by
  unfold featBlk
  refine (join3_apply (A := 64) (B := 128) _ _ _ concatenates_S64x128x32_S64x128x32_S64x128x64_S64x128x128_d2 b l k).trans ?_
  unfold featRow
  by_cases h0 : k.val < 32
  · rw [dif_pos h0, if_pos h0]; exact pay1_apply v0 b l ⟨k.val, h0⟩
  · rw [dif_neg h0, if_neg h0]
    by_cases h1 : k.val < 64
    · rw [dif_pos h1, if_pos h1]; exact pay2_apply v1 b l ⟨k.val - 32, by omega⟩
    · rw [dif_neg h1, if_neg h1]; exact pay3_apply v2 b l ⟨k.val - 64, by omega⟩

/-! ## The product -/

theorem mm_lhs_0 (j : S8192x256.Idx) (q : dot_S8192x128_S128x256_S8192x256_1_0_0_1_n_n.contr.Idx) :
    (dot_S8192x128_S128x256_S8192x256_1_0_0_1_n_n.lhsIdx j q 0).val = (j 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
theorem mm_lhs_1 (j : S8192x256.Idx) (q : dot_S8192x128_S128x256_S8192x256_1_0_0_1_n_n.contr.Idx) :
    (dot_S8192x128_S128x256_S8192x256_1_0_0_1_n_n.lhsIdx j q 1).val = (q ⟨0, by decide⟩).val :=
  dot_S8192x128_S128x256_S8192x256_1_0_0_1_n_n.lhsIdx_val_of_single rfl j q
theorem mm_rhs_0 (j : S8192x256.Idx) (q : dot_S8192x128_S128x256_S8192x256_1_0_0_1_n_n.contr.Idx) :
    (dot_S8192x128_S128x256_S8192x256_1_0_0_1_n_n.rhsIdx j q 0).val = (q ⟨0, by decide⟩).val :=
  dot_S8192x128_S128x256_S8192x256_1_0_0_1_n_n.rhsIdx_val_of_single rfl j q
theorem mm_rhs_1 (j : S8192x256.Idx) (q : dot_S8192x128_S128x256_S8192x256_1_0_0_1_n_n.contr.Idx) :
    (dot_S8192x128_S128x256_S8192x256_1_0_0_1_n_n.rhsIdx j q 1).val = (j 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- The body's product into a zero accumulator at (r, e): the sum over k of row r of the left operand times column e
    of the right. -/
theorem product_apply (L : FVec Ideal S8192x128 .bf16) (R : FVec Ideal S128x256 .bf16) (r : Fin 8192) (e : Fin 256) :
    matmul dot_S8192x128_S128x256_S8192x256_1_0_0_1_n_n none L R (constant S8192x256 .f32 0x00000000#32) (ix2 r e)
      = ∑ k : Fin 128, L (ix2 r k) * R (ix2 k e) := by
  show FloatOps.matmul dot_S8192x128_S128x256_S8192x256_1_0_0_1_n_n none L R (constant S8192x256 .f32 0x00000000#32) (ix2 r e) = _
  rw [Ideal.matmul_constant_zero_apply, ← Equiv.sum_comp (contrEquiv1 dot_S8192x128_S128x256_S8192x256_1_0_0_1_n_n 128 rfl rfl).symm]
  refine Finset.sum_congr rfl fun k _ => ?_
  have hk := contrEquiv1_symm_val dot_S8192x128_S128x256_S8192x256_1_0_0_1_n_n 128 rfl rfl k
  have el : dot_S8192x128_S128x256_S8192x256_1_0_0_1_n_n.lhsIdx (ix2 r e) ((contrEquiv1 dot_S8192x128_S128x256_S8192x256_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S8192x128_S128x256_S8192x256_1_0_0_1_n_n.rhsIdx (ix2 r e) ((contrEquiv1 dot_S8192x128_S128x256_S8192x256_1_0_0_1_n_n 128 rfl rfl).symm k) = ix2 k e := funext fun a => Fin.ext (by
    match a with
    | ⟨0, _⟩ => exact (mm_rhs_0 _ _).trans hk
    | ⟨1, _⟩ => exact mm_rhs_1 _ _)
  rw [el, er]

/-! ## The embedding block stored -/

/-- The fourth stored block at (b, l, e): position (b, l)'s feature row times column e of the weights held. -/
theorem pay4_apply (v0 v1 v2 : Vec Ideal S64x128 .i32) (w : Vec Ideal S128x256 .bf16) (b : Fin 64) (l : Fin 128) (e : Fin 256) :
    k0_pay4 (F := Ideal) v0 v1 v2 w (ix3 b l e)
      = ∑ k : Fin 128, featRow (v0 (ix2 b l)) (v1 (ix2 b l)) (v2 (ix2 b l)) k * w (ix2 k e) := by
  have hb := b.isLt
  have hl := l.isLt
  show shapeCast S64x128x256 (matmul dot_S8192x128_S128x256_S8192x256_1_0_0_1_n_n none
      (shapeCast S8192x128 (featBlk v0 v1 v2) shapeCasts_S64x128x128_S8192x128)
      (shapeCast S128x256 w shapeCasts_S128x256_S128x256) (constant S8192x256 .f32 0x00000000#32))
      shapeCasts_S8192x256_S64x128x256 (ix3 b l e) = _
  refine (shapeCast_apply _ shapeCasts_S8192x256_S64x128x256 (ix3 b l e)
    (ix2 (⟨b.val * 128 + l.val, by omega⟩ : Fin 8192) e) ?_).trans ?_
  · rw [Shape.rowMajor_val_two, Shape.rowMajor_val_three]; rfl
  refine (product_apply _ _ (⟨b.val * 128 + l.val, by omega⟩ : Fin 8192) e).trans ?_
  refine Finset.sum_congr rfl fun k _ => ?_
  have e1 : shapeCast S8192x128 (featBlk v0 v1 v2) shapeCasts_S64x128x128_S8192x128 (ix2 (⟨b.val * 128 + l.val, by omega⟩ : Fin 8192) k)
      = featRow (v0 (ix2 b l)) (v1 (ix2 b l)) (v2 (ix2 b l)) k := by
    refine (shapeCast_apply _ shapeCasts_S64x128x128_S8192x128 (ix2 (⟨b.val * 128 + l.val, by omega⟩ : Fin 8192) k) (ix3 b l k) ?_).trans
      (featBlk_apply v0 v1 v2 b l k)
    rw [Shape.rowMajor_val_two, Shape.rowMajor_val_three]; rfl
  have e2 : shapeCast S128x256 w shapeCasts_S128x256_S128x256 (ix2 k e) = w (ix2 k e) := by
    rw [shapeCast_self]
  rw [e1, e2]

end Cert.KernelIdeal.Body

end
-- ==== Proof.KernelStores.lean ====
/-
  A point's stored blocks against the specification of the whole arrays.

  Grid point T holds, of each index array, the block of columns T·128 … T·128 + 127 (all 64 rows), and the whole
  transposed weight matrix: entry (k, e) of what it holds is W (e, k). So entry (b, l', ·) of a stored block is the
  specification's entry (b, T·128 + l', ·): the class tests read the same word, and the product sums the same feature
  row against the same weights.
-/
import proofs.«112947_j1365799600731_1_alg».proof.Proof.KernelPayload

noncomputable section

namespace Cert.KernelIdeal.Body

open Cert.KernelIdeal Cert.KernelIdeal.Gen
open Idealize.ShloMosaic Idealize.ShloMosaic.ValueIdx Cert.OneHot
open scoped BigOperators

/-- An array index (i0, i1) with i0 = b and i1 = T·128 + l is the position the block's (b, l) came from. -/
theorem pos_eq (T : Nat) (b : Fin 64) (l : Fin 128) (hl : T * 128 + l.val < 2048) (i0 : Fin 64) (i1 : Fin 2048)
    (c0 : i0.val = b.val) (c1 : i1.val = T * 128 + l.val) :
    ix2 i0 i1 = ix2 b (⟨T * 128 + l.val, hl⟩ : Fin 2048) :=
  funext fun a => Fin.ext (by match a with | ⟨0, _⟩ => exact c0 | ⟨1, _⟩ => exact c1)

/-- The first stored block is the block of the 32-class encoding of the first array. -/
theorem store1_eq (v : Vec Ideal S64x128 .i32) (X : IVec SPos 32) (T : Nat) (hT : T < 16)
    (hv : ∀ (b : Fin 64) (l : Fin 128) (hl : T * 128 + l.val < 2048), v (ix2 b l) = X (ix2 b (⟨T * 128 + l.val, hl⟩ : Fin 2048)))
    (j : S64x128x32.Idx) (i : SHot32.Idx)
    (c0 : (i 0).val = (j 0).val) (c1 : (i 1).val = T * 128 + (j 1).val) (c2 : (i 2).val = (j 2).val) :
    k0_pay1 (F := Ideal) v j = oneHot32 X i := by
  obtain ⟨b, l, q, rfl⟩ : ∃ (b : Fin 64) (l : Fin 128) (q : Fin 32), j = ix3 b l q := ⟨j 0, j 1, j 2, eq_ix3 j⟩
  have hl : T * 128 + l.val < 2048 := by have := l.isLt; omega
  rw [pay1_apply, hv b l hl]
  unfold oneHot32
  rw [pos_eq T b l hl (i 0) (i 1) c0 c1, c2]

/-- The second stored block, of the second array. -/
theorem store2_eq (v : Vec Ideal S64x128 .i32) (X : IVec SPos 32) (T : Nat) (hT : T < 16)
    (hv : ∀ (b : Fin 64) (l : Fin 128) (hl : T * 128 + l.val < 2048), v (ix2 b l) = X (ix2 b (⟨T * 128 + l.val, hl⟩ : Fin 2048)))
    (j : S64x128x32.Idx) (i : SHot32.Idx)
    (c0 : (i 0).val = (j 0).val) (c1 : (i 1).val = T * 128 + (j 1).val) (c2 : (i 2).val = (j 2).val) :
    k0_pay2 (F := Ideal) v j = oneHot32 X i := by
  obtain ⟨b, l, q, rfl⟩ : ∃ (b : Fin 64) (l : Fin 128) (q : Fin 32), j = ix3 b l q := ⟨j 0, j 1, j 2, eq_ix3 j⟩
  have hl : T * 128 + l.val < 2048 := by have := l.isLt; omega
  rw [pay2_apply, hv b l hl]
  unfold oneHot32
  rw [pos_eq T b l hl (i 0) (i 1) c0 c1, c2]

/-- The third stored block is the block of the 64-class encoding of the third array. -/
theorem store3_eq (v : Vec Ideal S64x128 .i32) (X : IVec SPos 32) (T : Nat) (hT : T < 16)
    (hv : ∀ (b : Fin 64) (l : Fin 128) (hl : T * 128 + l.val < 2048), v (ix2 b l) = X (ix2 b (⟨T * 128 + l.val, hl⟩ : Fin 2048)))
    (j : S64x128x64.Idx) (i : SHot64.Idx)
    (c0 : (i 0).val = (j 0).val) (c1 : (i 1).val = T * 128 + (j 1).val) (c2 : (i 2).val = (j 2).val) :
    k0_pay3 (F := Ideal) v j = oneHot64 X i := by
  obtain ⟨b, l, q, rfl⟩ : ∃ (b : Fin 64) (l : Fin 128) (q : Fin 64), j = ix3 b l q := ⟨j 0, j 1, j 2, eq_ix3 j⟩
  have hl : T * 128 + l.val < 2048 := by have := l.isLt; omega
  rw [pay3_apply, hv b l hl]
  unfold oneHot64
  rw [pos_eq T b l hl (i 0) (i 1) c0 c1, c2]

/-- The fourth stored block is the block of the embedding. -/
theorem store4_eq (v0 v1 v2 : Vec Ideal S64x128 .i32) (w : Vec Ideal S128x256 .bf16) (X0 X1 X2 : IVec SPos 32)
    (W : FVec Ideal SWgt .f32) (T : Nat) (hT : T < 16)
    (hv0 : ∀ (b : Fin 64) (l : Fin 128) (hl : T * 128 + l.val < 2048), v0 (ix2 b l) = X0 (ix2 b (⟨T * 128 + l.val, hl⟩ : Fin 2048)))
    (hv1 : ∀ (b : Fin 64) (l : Fin 128) (hl : T * 128 + l.val < 2048), v1 (ix2 b l) = X1 (ix2 b (⟨T * 128 + l.val, hl⟩ : Fin 2048)))
    (hv2 : ∀ (b : Fin 64) (l : Fin 128) (hl : T * 128 + l.val < 2048), v2 (ix2 b l) = X2 (ix2 b (⟨T * 128 + l.val, hl⟩ : Fin 2048)))
    (hw : ∀ (k : Fin 128) (e : Fin 256), w (ix2 k e) = W (ix2 e k))
    (j : S64x128x256.Idx) (i : SEmb.Idx)
    (c0 : (i 0).val = (j 0).val) (c1 : (i 1).val = T * 128 + (j 1).val) (c2 : (i 2).val = (j 2).val) :
    k0_pay4 (F := Ideal) v0 v1 v2 w j = embed X0 X1 X2 W i := by
  obtain ⟨b, l, e, rfl⟩ : ∃ (b : Fin 64) (l : Fin 128) (e : Fin 256), j = ix3 b l e := ⟨j 0, j 1, j 2, eq_ix3 j⟩
  have hl : T * 128 + l.val < 2048 := by have := l.isLt; omega
  rw [pay4_apply, hv0 b l hl, hv1 b l hl, hv2 b l hl]
  unfold embed
  rw [pos_eq T b l hl (i 0) (i 1) c0 c1]
  refine Finset.sum_congr rfl fun k _ => ?_
  rw [hw k e]
  have ei : ix2 (n0 := 256) (n1 := 128) (i 2) k = ix2 e k :=
    funext fun a => Fin.ext (by match a with | ⟨0, _⟩ => exact c2 | ⟨1, _⟩ => rfl)
  rw [ei]

end Cert.KernelIdeal.Body

end
-- ==== Proof.KernelValue.lean ====
/-
  The kernel's four result arrays after the run are the specification's functions of the arguments.

  The grid has 16 points; point t stages columns t·128 … t·128 + 127 of each index array (all 64 rows) and the whole
  transposed weights, and writes back the same columns of each result. The weights the kernel is launched on are the
  transpose of the weight argument, narrowed (no change of value): entry (k, e) is W (e, k). So what point t writes
  back is block t of the specification's function (the stored-block lemmas), the 16 blocks cover each result array
  (an index's column l lies in the block of point l / 128), and each result array ends holding the function whole.
-/
import proofs.«112947_j1365799600731_1_alg».proof.Proof.Gen.KernelIdeal.Value
import proofs.«112947_j1365799600731_1_alg».proof.Proof.KernelStores
import Idealize.ShloMosaic.Lib.Pipeline.Value
import Idealize.ShloMosaic.Lib.StableHlo.Run

noncomputable section

namespace Cert.KernelIdeal.Arrays

open Cert.KernelIdeal Cert.KernelIdeal.Gen Cert.KernelIdeal.Value Cert.KernelIdeal.Body
open Idealize.ShloMosaic Idealize.ShloMosaic.TcCoe Idealize.ShloMosaic.ValueIdx Idealize.SL.Sem Cert.OneHot
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem t_lt (t : Fin cfg0.N) : t.val < 16 := by
  have h := t.isLt; have hN : cfg0.N = 16 := N_0; omega

/-! ## Blocks (0, t, 0) of extents [64, 128, n] in an array of extents [64, 2048, n] -/

/-- A block index (0, T, 0) puts the block's entry (j0, j1, j2) at the array's (j0, T·128 + j1, j2). -/
theorem tile_emb (idx : Fin 3 → Nat) (T : Nat) (h : idx 0 = 0 ∧ idx 1 = T ∧ idx 2 = 0) (n j0 j1 j2 : Nat) :
    idx 0 * 64 + 1 * j0 = j0 ∧ idx 1 * 128 + 1 * j1 = T * 128 + j1 ∧ idx 2 * n + 1 * j2 = j2 := by
  obtain ⟨e0, e1, e2⟩ := h
  rw [e0, e1, e2]
  omega

/-- With block index (0, t, 0) at point t, the 16 points' blocks cover the array: (i0, i1, i2) is in the block of
    point i1 / 128. -/
theorem tile_cover (idx : Fin cfg0.N → Fin 3 → Nat)
    (hidx : ∀ t : Fin cfg0.N, idx t 0 = 0 ∧ idx t 1 = t.val ∧ idx t 2 = 0)
    (n i0 i1 i2 : Nat) (h0 : i0 < 64) (h1 : i1 < 2048) (h2 : i2 < n) :
    ∃ t : Fin cfg0.N, (idx t 0 * 64 ≤ i0 ∧ i0 < idx t 0 * 64 + 64) ∧ (idx t 1 * 128 ≤ i1 ∧ i1 < idx t 1 * 128 + 128)
      ∧ (idx t 2 * n ≤ i2 ∧ i2 < idx t 2 * n + n) := by
  have ht : i1 / 128 < cfg0.N := by rw [show cfg0.N = 16 from N_0]; omega
  obtain ⟨e0, e1, e2⟩ := hidx ⟨i1 / 128, ht⟩
  refine ⟨⟨i1 / 128, ht⟩, ?_, ?_, ?_⟩
  · rw [e0]; omega
  · rw [e1]; show i1 / 128 * 128 ≤ i1 ∧ i1 < i1 / 128 * 128 + 128; omega
  · rw [e2]; omega

/-! ## The staged blocks -/

/-- The printed index maps of the staged windows over the grid: each index array's window is at block (0, t) at point
    t, the weights' window at block (0, 0). -/
theorem idx_in : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0 :=
  (by decide +kernel : ∀ t : Fin grid0.N, _)

/-- Point t's block of the first index array: columns t·128 … of the array. -/
theorem blk0_apply (c : Dev nD) (t : Fin cfg0.N) (b : Fin 64) (l : Fin 128) (hl : t.val * 128 + l.val < 2048) :
    (iblk m c 0 t : Vec Ideal S64x128 .i32) (ix2 b l)
      = (V m c main_arg0 : IVec SPos 32) (ix2 b (⟨t.val * 128 + l.val, hl⟩ : Fin 2048)) := by
  obtain ⟨e00, e01, -⟩ := idx_in t
  unfold iblk
  rw [View.read_apply]
  show V m c main_arg0 _ = V m c main_arg0 _
  congr 1
  funext a; apply Fin.ext
  match a with
  | ⟨0, _⟩ => show win0_0.index t (0 : Fin 2) * 64 + 1 * b.val = b.val; rw [e00]; omega
  | ⟨1, _⟩ => show win0_0.index t (1 : Fin 2) * 128 + 1 * l.val = t.val * 128 + l.val; rw [e01]; omega

/-- Of the second. -/
theorem blk1_apply (c : Dev nD) (t : Fin cfg0.N) (b : Fin 64) (l : Fin 128) (hl : t.val * 128 + l.val < 2048) :
    (iblk m c 1 t : Vec Ideal S64x128 .i32) (ix2 b l)
      = (V m c main_arg1 : IVec SPos 32) (ix2 b (⟨t.val * 128 + l.val, hl⟩ : Fin 2048)) := by
  obtain ⟨-, -, e10, e11, -⟩ := idx_in t
  unfold iblk
  rw [View.read_apply]
  show V m c main_arg1 _ = V m c main_arg1 _
  congr 1
  funext a; apply Fin.ext
  match a with
  | ⟨0, _⟩ => show win0_1.index t (0 : Fin 2) * 64 + 1 * b.val = b.val; rw [e10]; omega
  | ⟨1, _⟩ => show win0_1.index t (1 : Fin 2) * 128 + 1 * l.val = t.val * 128 + l.val; rw [e11]; omega

/-- Of the third. -/
theorem blk2_apply (c : Dev nD) (t : Fin cfg0.N) (b : Fin 64) (l : Fin 128) (hl : t.val * 128 + l.val < 2048) :
    (iblk m c 2 t : Vec Ideal S64x128 .i32) (ix2 b l)
      = (V m c main_arg2 : IVec SPos 32) (ix2 b (⟨t.val * 128 + l.val, hl⟩ : Fin 2048)) := by
  obtain ⟨-, -, -, -, e20, e21, -⟩ := idx_in t
  unfold iblk
  rw [View.read_apply]
  show V m c main_arg2 _ = V m c main_arg2 _
  congr 1
  funext a; apply Fin.ext
  match a with
  | ⟨0, _⟩ => show win0_2.index t (0 : Fin 2) * 64 + 1 * b.val = b.val; rw [e20]; omega
  | ⟨1, _⟩ => show win0_2.index t (1 : Fin 2) * 128 + 1 * l.val = t.val * 128 + l.val; rw [e21]; omega

/-- What the kernel is launched on in place of the weights: their transpose, narrowed. -/
theorem launched_weights (c : Dev nD) :
    (V m c main_v1 : S128x256.Idx → EReal)
      = truncf (F := Ideal) .bf16 (transpose S128x256 [1, 0] (m ((c : Thread nD τ).loc main_arg3) : FVec Ideal S256x128 .f32)
          transposes_S256x128_S128x256_1_0) bitsLt_bf16_f32 := by
  dsimp only [Gen.V, Gen.hostOps0]; after_results

/-- The weights' block at every point is all of it: entry (k, e) is W (e, k). -/
theorem blk3_apply (c : Dev nD) (t : Fin cfg0.N) (k : Fin 128) (e : Fin 256) :
    (iblk m c 3 t : Vec Ideal S128x256 .bf16) (ix2 k e)
      = (m ((c : Thread nD τ).loc main_arg3) : FVec Ideal SWgt .f32) (ix2 e k) := by
  obtain ⟨-, -, -, -, -, -, e30, e31⟩ := idx_in t
  have h1 : (iblk m c 3 t : Vec Ideal S128x256 .bf16) (ix2 k e) = (V m c main_v1 : S128x256.Idx → EReal) (ix2 k e) := by
    unfold iblk
    rw [View.read_apply]
    show V m c main_v1 _ = V m c main_v1 _
    congr 1
    funext a; apply Fin.ext
    match a with
    | ⟨0, _⟩ => show win0_3.index t (0 : Fin 2) * 128 + 1 * k.val = k.val; rw [e30]; omega
    | ⟨1, _⟩ => show win0_3.index t (1 : Fin 2) * 256 + 1 * e.val = e.val; rw [e31]; omega
  rw [h1, launched_weights]
  show transpose S128x256 [1, 0] (m ((c : Thread nD τ).loc main_arg3) : FVec Ideal S256x128 .f32) transposes_S256x128_S128x256_1_0 (ix2 k e) = _
  refine transpose_apply [1, 0] _ transposes_S256x128_S128x256_1_0 (ix2 k e) (ix2 e k) (fun b => ?_)
  match b with
  | ⟨0, _⟩ => rfl
  | ⟨1, _⟩ => rfl

/-! ## The first result: the 32-class encoding of the first argument -/

theorem idx4 : ∀ t : Fin cfg0.N, win0_4.index t (0 : Fin 3) = 0 ∧ win0_4.index t (1 : Fin 3) = t.val ∧ win0_4.index t (2 : Fin 3) = 0 :=
  (by decide +kernel : ∀ t : Fin grid0.N, _)

/-- Point t writes back block t of the encoding. -/
theorem flushed4_eq (c : Dev nD) (t : Fin cfg0.N) :
    (dats m 0 c).flushed 4 t = ((cfg0.win 4).blk t).view.read (Elt Ideal) (oneHot32 (V m c main_arg0)) := by
  rw [flushed4]
  unfold out0_4
  rw [View.canon_unit_zero hz3]
  simp only [View.ld_unit_zero (S := S64x128) hz2]
  funext j
  obtain ⟨c0, c1, c2⟩ := tile_emb (win0_4.index t) t.val (idx4 t) 32 (j 0).val (j 1).val (j 2).val
  show k0_pay1 (F := Ideal) (iblk m c 0 t) j = oneHot32 (V m c main_arg0) (((cfg0.win 4).blk t).view.emb j)
  exact store1_eq (iblk m c 0 t) (V m c main_arg0) t.val (t_lt t) (fun b l hl => blk0_apply m c t b l hl) j
    (((cfg0.win 4).blk t).view.emb j) c0 c1 c2

/-- An index of the array is in point t's block iff each coordinate is in the block's range on its axis. -/
theorem mem_blk4 (t : Fin cfg0.N) (i : S64x2048x32.Idx) :
    i ∈ ((cfg0.win 4).blk t).view.set ↔ ∀ a : Fin 3, win0_4.index t a * S64x128x32.size a ≤ (i a).val ∧ (i a).val < win0_4.index t a * S64x128x32.size a + S64x128x32.size a := by
  show i ∈ ((View.whole main_v2_0).slice (win0_4.rect t)).set ↔ _
  rw [View.set_slice_whole, Rect.mem_set_unit]
  exact Iff.rfl

theorem cover4 (i : S64x2048x32.Idx) : ∃ t : Fin cfg0.N, (cfg0.win 4).flush t = true ∧ i ∈ ((cfg0.win 4).blk t).view.set := by
  obtain ⟨t, c0, c1, c2⟩ := tile_cover win0_4.index idx4 32 (i 0).val (i 1).val (i 2).val (i 0).isLt (i 1).isLt (i 2).isLt
  refine ⟨t, flush0_4 t, ?_⟩
  rw [mem_blk4]
  intro a
  match a with
  | ⟨0, _⟩ => exact c0
  | ⟨1, _⟩ => exact c1
  | ⟨2, _⟩ => exact c2

theorem final4 (c : Dev nD) : (dats m 0 c).arrAt 4 cfg0.N = oneHot32 (m ((c : Thread nD τ).loc main_arg0)) :=
  ((dats m 0 c).arrAt_eq_of_cover 4 (oneHot32 (V m c main_arg0)) (fun t _ => flushed4_eq m c t) cover4).trans
    (congrArg oneHot32 (V_main_arg0 m c))

/-! ## The second result: the 32-class encoding of the second argument -/

theorem idx5 : ∀ t : Fin cfg0.N, win0_5.index t (0 : Fin 3) = 0 ∧ win0_5.index t (1 : Fin 3) = t.val ∧ win0_5.index t (2 : Fin 3) = 0 :=
  (by decide +kernel : ∀ t : Fin grid0.N, _)

/-- Point t writes back block t of the encoding. -/
theorem flushed5_eq (c : Dev nD) (t : Fin cfg0.N) :
    (dats m 0 c).flushed 5 t = ((cfg0.win 5).blk t).view.read (Elt Ideal) (oneHot32 (V m c main_arg1)) := by
  rw [flushed5]
  unfold out0_5
  rw [View.canon_unit_zero hz3]
  simp only [View.ld_unit_zero (S := S64x128) hz2]
  funext j
  obtain ⟨c0, c1, c2⟩ := tile_emb (win0_5.index t) t.val (idx5 t) 32 (j 0).val (j 1).val (j 2).val
  show k0_pay2 (F := Ideal) (iblk m c 1 t) j = oneHot32 (V m c main_arg1) (((cfg0.win 5).blk t).view.emb j)
  exact store2_eq (iblk m c 1 t) (V m c main_arg1) t.val (t_lt t) (fun b l hl => blk1_apply m c t b l hl) j
    (((cfg0.win 5).blk t).view.emb j) c0 c1 c2

theorem mem_blk5 (t : Fin cfg0.N) (i : S64x2048x32.Idx) :
    i ∈ ((cfg0.win 5).blk t).view.set ↔ ∀ a : Fin 3, win0_5.index t a * S64x128x32.size a ≤ (i a).val ∧ (i a).val < win0_5.index t a * S64x128x32.size a + S64x128x32.size a := by
  show i ∈ ((View.whole main_v2_1).slice (win0_5.rect t)).set ↔ _
  rw [View.set_slice_whole, Rect.mem_set_unit]
  exact Iff.rfl

theorem cover5 (i : S64x2048x32.Idx) : ∃ t : Fin cfg0.N, (cfg0.win 5).flush t = true ∧ i ∈ ((cfg0.win 5).blk t).view.set := by
  obtain ⟨t, c0, c1, c2⟩ := tile_cover win0_5.index idx5 32 (i 0).val (i 1).val (i 2).val (i 0).isLt (i 1).isLt (i 2).isLt
  refine ⟨t, flush0_5 t, ?_⟩
  rw [mem_blk5]
  intro a
  match a with
  | ⟨0, _⟩ => exact c0
  | ⟨1, _⟩ => exact c1
  | ⟨2, _⟩ => exact c2

theorem final5 (c : Dev nD) : (dats m 0 c).arrAt 5 cfg0.N = oneHot32 (m ((c : Thread nD τ).loc main_arg1)) :=
  ((dats m 0 c).arrAt_eq_of_cover 5 (oneHot32 (V m c main_arg1)) (fun t _ => flushed5_eq m c t) cover5).trans
    (congrArg oneHot32 (V_main_arg1 m c))

/-! ## The third result: the 64-class encoding of the third argument -/

theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)

/-- Point t writes back block t of the encoding. -/
theorem flushed6_eq (c : Dev nD) (t : Fin cfg0.N) :
    (dats m 0 c).flushed 6 t = ((cfg0.win 6).blk t).view.read (Elt Ideal) (oneHot64 (V m c main_arg2)) := by
  rw [flushed6]
  unfold out0_6
  rw [View.canon_unit_zero hz3]
  simp only [View.ld_unit_zero (S := S64x128) hz2]
  funext j
  obtain ⟨c0, c1, c2⟩ := tile_emb (win0_6.index t) t.val (idx6 t) 64 (j 0).val (j 1).val (j 2).val
  show k0_pay3 (F := Ideal) (iblk m c 2 t) j = oneHot64 (V m c main_arg2) (((cfg0.win 6).blk t).view.emb j)
  exact store3_eq (iblk m c 2 t) (V m c main_arg2) t.val (t_lt t) (fun b l hl => blk2_apply m c t b l hl) j
    (((cfg0.win 6).blk t).view.emb j) c0 c1 c2

theorem mem_blk6 (t : Fin cfg0.N) (i : S64x2048x64.Idx) :
    i ∈ ((cfg0.win 6).blk t).view.set ↔ ∀ a : Fin 3, win0_6.index t a * S64x128x64.size a ≤ (i a).val ∧ (i a).val < win0_6.index t a * S64x128x64.size a + S64x128x64.size a := by
  show i ∈ ((View.whole main_v2_2).slice (win0_6.rect t)).set ↔ _
  rw [View.set_slice_whole, Rect.mem_set_unit]
  exact Iff.rfl

theorem cover6 (i : S64x2048x64.Idx) : ∃ t : Fin cfg0.N, (cfg0.win 6).flush t = true ∧ i ∈ ((cfg0.win 6).blk t).view.set := by
  obtain ⟨t, c0, c1, c2⟩ := tile_cover win0_6.index idx6 64 (i 0).val (i 1).val (i 2).val (i 0).isLt (i 1).isLt (i 2).isLt
  refine ⟨t, flush0_6 t, ?_⟩
  rw [mem_blk6]
  intro a
  match a with
  | ⟨0, _⟩ => exact c0
  | ⟨1, _⟩ => exact c1
  | ⟨2, _⟩ => exact c2

theorem final6 (c : Dev nD) : (dats m 0 c).arrAt 6 cfg0.N = oneHot64 (m ((c : Thread nD τ).loc main_arg2)) :=
  ((dats m 0 c).arrAt_eq_of_cover 6 (oneHot64 (V m c main_arg2)) (fun t _ => flushed6_eq m c t) cover6).trans
    (congrArg oneHot64 (V_main_arg2 m c))

/-! ## The fourth result: the embedding -/

theorem idx7 : ∀ t : Fin cfg0.N, win0_7.index t (0 : Fin 3) = 0 ∧ win0_7.index t (1 : Fin 3) = t.val ∧ win0_7.index t (2 : Fin 3) = 0 :=
  (by decide +kernel : ∀ t : Fin grid0.N, _)

/-- Point t writes back block t of the embedding: it reads all three index blocks and the weights. -/
theorem flushed7_eq (c : Dev nD) (t : Fin cfg0.N) :
    (dats m 0 c).flushed 7 t = ((cfg0.win 7).blk t).view.read (Elt Ideal)
      (embed (V m c main_arg0) (V m c main_arg1) (V m c main_arg2) (m ((c : Thread nD τ).loc main_arg3))) := by
  rw [flushed7]
  unfold out0_7
  rw [View.canon_unit_zero hz3]
  simp only [View.ld_unit_zero (S := S64x128) hz2, View.ld_unit_zero (S := S128x256) hz2]
  funext j
  obtain ⟨c0, c1, c2⟩ := tile_emb (win0_7.index t) t.val (idx7 t) 256 (j 0).val (j 1).val (j 2).val
  show k0_pay4 (F := Ideal) (iblk m c 0 t) (iblk m c 1 t) (iblk m c 2 t) (iblk m c 3 t) j
    = embed (V m c main_arg0) (V m c main_arg1) (V m c main_arg2) (m ((c : Thread nD τ).loc main_arg3)) (((cfg0.win 7).blk t).view.emb j)
  exact store4_eq (iblk m c 0 t) (iblk m c 1 t) (iblk m c 2 t) (iblk m c 3 t) (V m c main_arg0) (V m c main_arg1)
    (V m c main_arg2) (m ((c : Thread nD τ).loc main_arg3)) t.val (t_lt t) (fun b l hl => blk0_apply m c t b l hl)
    (fun b l hl => blk1_apply m c t b l hl) (fun b l hl => blk2_apply m c t b l hl) (fun k e => blk3_apply m c t k e) j
    (((cfg0.win 7).blk t).view.emb j) c0 c1 c2

theorem mem_blk7 (t : Fin cfg0.N) (i : S64x2048x256.Idx) :
    i ∈ ((cfg0.win 7).blk t).view.set ↔ ∀ a : Fin 3, win0_7.index t a * S64x128x256.size a ≤ (i a).val ∧ (i a).val < win0_7.index t a * S64x128x256.size a + S64x128x256.size a := by
  show i ∈ ((View.whole main_v2_3).slice (win0_7.rect t)).set ↔ _
  rw [View.set_slice_whole, Rect.mem_set_unit]
  exact Iff.rfl

theorem cover7 (i : S64x2048x256.Idx) : ∃ t : Fin cfg0.N, (cfg0.win 7).flush t = true ∧ i ∈ ((cfg0.win 7).blk t).view.set := by
  obtain ⟨t, c0, c1, c2⟩ := tile_cover win0_7.index idx7 256 (i 0).val (i 1).val (i 2).val (i 0).isLt (i 1).isLt (i 2).isLt
  refine ⟨t, flush0_7 t, ?_⟩
  rw [mem_blk7]
  intro a
  match a with
  | ⟨0, _⟩ => exact c0
  | ⟨1, _⟩ => exact c1
  | ⟨2, _⟩ => exact c2

theorem final7 (c : Dev nD) : (dats m 0 c).arrAt 7 cfg0.N
    = embed (m ((c : Thread nD τ).loc main_arg0)) (m ((c : Thread nD τ).loc main_arg1)) (m ((c : Thread nD τ).loc main_arg2))
        (m ((c : Thread nD τ).loc main_arg3)) :=
  ((dats m 0 c).arrAt_eq_of_cover 7 (embed (V m c main_arg0) (V m c main_arg1) (V m c main_arg2) (m ((c : Thread nD τ).loc main_arg3)))
    (fun t _ => flushed7_eq m c t) cover7).trans (by rw [V_main_arg0, V_main_arg1, V_main_arg2])

/-! ## The run, read -/

/-- Every weakly fair execution of the kernel's program ends with the four result arrays at the specification's
    functions of the arguments as launched, and the arguments unchanged. -/
theorem run : θ_run defs (onTc (τ := τ) (main (F := Ideal))) ⟨m, fun _ => 0, ρ⟩ fun r => ∀ c : Dev nD,
      r.2.mem ((c : Thread nD τ).loc main_v2_0) = oneHot32 (m ((c : Thread nD τ).loc main_arg0))
      ∧ r.2.mem ((c : Thread nD τ).loc main_v2_1) = oneHot32 (m ((c : Thread nD τ).loc main_arg1))
      ∧ r.2.mem ((c : Thread nD τ).loc main_v2_2) = oneHot64 (m ((c : Thread nD τ).loc main_arg2))
      ∧ r.2.mem ((c : Thread nD τ).loc main_v2_3)
          = embed (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
      (h c).2.2.1.trans (final6 m c), (h c).2.2.2.1.trans (final7 m c), (h c).2.2.2.2⟩)
    (run_blocks m ρ)

end Cert.KernelIdeal.Arrays

end
-- ==== Proof.lean ====
/-
  One-hot features and their linear embedding: the kernel against its reference, over the extended reals.

  Three [64, 2048] arrays of index words are one-hot encoded with 32, 32 and 64 classes; the encodings are the first
  three results, and the fourth is their join along the class axis (128 features per position) times the transposed
  [256, 128] weights. The kernel does this 128 columns at a time over a grid of 16 points, building each encoding by
  comparing the words with the class numbers and converting the condition, and the embedding by one [8192, 128] ×
  [128, 256] product per point on weights transposed (and narrowed, which changes no value here) before the launch.
  The reference does it on whole arrays with a contraction over the weights' second axis.

  Both are the same functions of the arguments (Proof/OneHotSpec.lean): an encoding's entry (b, l, j) is the test
  "word (b, l) is the word of class j" as a number — so a word outside the classes gives a zero row on both sides, and
  no range of the index arguments is assumed —, and the embedding's entry (b, l, e) is the sum over k of feature
  (b, l, k) times W (e, k), the same 128 products in the same order on both sides. No law of arithmetic is needed to
  join them, so the finiteness of the weights is never used.

  The reference's results are read off its run stage by stage (Proof/RefValue.lean); the kernel's stored blocks are
  read at an index (Proof/KernelPayload.lean), identified with blocks of the specification (Proof/KernelStores.lean)
  and assembled over the grid into the whole arrays (Proof/KernelValue.lean). The three runs' termination and the
  unchanged arguments are the generated frames, the reference's with its run's results dropped. The idealization
  rewrote nothing, so there is nothing to preserve.
-/
import proofs.«112947_j1365799600731_1_alg».proof.Defs
import proofs.«112947_j1365799600731_1_alg».proof.Proof.Gen.Kernel
import proofs.«112947_j1365799600731_1_alg».proof.Proof.Gen.Kernel.Skeleton
import proofs.«112947_j1365799600731_1_alg».proof.Proof.Gen.Kernel.Launch
import proofs.«112947_j1365799600731_1_alg».proof.Proof.Gen.Kernel.Points
import proofs.«112947_j1365799600731_1_alg».proof.Proof.Gen.Kernel.Frame
import proofs.«112947_j1365799600731_1_alg».proof.Proof.Gen.KernelIdeal
import proofs.«112947_j1365799600731_1_alg».proof.Proof.Gen.KernelIdeal.Skeleton
import proofs.«112947_j1365799600731_1_alg».proof.Proof.Gen.KernelIdeal.Launch
import proofs.«112947_j1365799600731_1_alg».proof.Proof.Gen.KernelIdeal.Points
import proofs.«112947_j1365799600731_1_alg».proof.Proof.Gen.KernelIdeal.Frame
import proofs.«112947_j1365799600731_1_alg».proof.Proof.Gen.ReferenceIdeal
import proofs.«112947_j1365799600731_1_alg».proof.Proof.Gen.KernelIdeal.Value
import proofs.«112947_j1365799600731_1_alg».proof.Proof.Gen.ReferenceIdeal.Run
import proofs.«112947_j1365799600731_1_alg».proof.Proof.Gen.ReferenceIdeal.Read
import proofs.«112947_j1365799600731_1_alg».proof.Proof.Gen.Pre_finite_inputs
import proofs.«112947_j1365799600731_1_alg».proof.Proof.OneHotSpec
import proofs.«112947_j1365799600731_1_alg».proof.Proof.RefValue
import proofs.«112947_j1365799600731_1_alg».proof.Proof.KernelValue
import Idealize.ShloMosaic.Adequacy
import Idealize.ShloMosaic.Init

noncomputable section

namespace Cert.Proof

open Idealize.ShloMosaic Idealize.ShloMosaic.TcCoe Idealize.SL.Sem Cert.OneHot

theorem frame_k : Cert.frame_Kernel := fun m ρ _ => Cert.Kernel.Gen.frame m ρ

theorem frame_ki : Cert.frame_KernelIdeal := fun m ρ _ => Cert.KernelIdeal.Gen.frame m ρ

/-- The reference's run with its four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From arguments that agree, the kernel's result arrays end at the specification's functions of them (the kernel's
    run, read) and the reference's at the same functions (its run, read stage by stage). -/
theorem algebraic : Cert.algebraic_KernelIdeal_ReferenceIdeal := by
  intro m ρ m' ρ' _ hagree
  refine ⟨_, _, _, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2.1.trans ?_, (h c).2.2.2.1.trans ?_, (h c).2.2.2.2⟩
  · rw [Cert.ReferenceIdeal.Read.val_main_v0_eq, Cert.ReferenceIdeal.RefValue.v0_eq, a0]
  · rw [Cert.ReferenceIdeal.Read.val_main_v1_eq, Cert.ReferenceIdeal.RefValue.v1_eq, a1]
  · rw [Cert.ReferenceIdeal.Read.val_main_v2_eq, Cert.ReferenceIdeal.RefValue.v2_eq, a2]
  · rw [Cert.ReferenceIdeal.Read.val_main_v4_eq, Cert.ReferenceIdeal.RefValue.v4_eq, a0, a1, a2, a3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
